-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S8192 : Shape := ⟨1, ![8192]⟩
abbrev S8192x8192 : Shape := ⟨2, ![8192, 8192]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S32x8192 .f32) (main_arg1 : FVec F S8192 .f32) (main_arg2 : FVec F S8192 .f32) (main_arg3 : IVec S8192x8192 32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S32x8192 : Shape := ⟨2, ![32, 8192]⟩
abbrev S8192 : Shape := ⟨1, ![8192]⟩
abbrev S8192x8192 : Shape := ⟨2, ![8192, 8192]⟩
abbrev S256x8192 : Shape := ⟨2, ![256, 8192]⟩
abbrev S256 : Shape := ⟨1, ![256]⟩
abbrev S32x256 : Shape := ⟨2, ![32, 256]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S32x8192, .f32⟩
  | .hbm, ⟨1, _⟩ => ⟨S8192, .f32⟩
  | .hbm, ⟨2, _⟩ => ⟨S8192, .f32⟩
  | .hbm, ⟨3, _⟩ => ⟨S8192x8192, .i32⟩
  | .hbm, ⟨4, _⟩ => ⟨S32x8192, .f32⟩
  | .local _ .vmem, ⟨0, _⟩ => ⟨S32x8192, .f32⟩
  | .local _ .vmem, ⟨1, _⟩ => ⟨S256x8192, .i32⟩
  | .local _ .vmem, ⟨2, _⟩ => ⟨S256x8192, .i32⟩
  | .local _ .vmem, ⟨3, _⟩ => ⟨S256, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S32x256, .f32⟩
  | .local _ .vmem, ⟨8, _⟩ => ⟨S32x256, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S32x8192_S32x8192_0_0 : ∀ a, (![0, 0] : Fin 2 → Nat) a + S32x8192.size a ≤ S32x8192.size a
  h_S32x8192 : 0 < S32x8192.numel
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  inb_S256_S256_0 : ∀ a, (![0] : Fin 1 → Nat) a + S256.size a ≤ S256.size a
  h_S256 : 0 < S256.numel
  shapeCasts_S256_S1x256 : S256.ShapeCasts S1x256
  broadcasts_S1x256_S32x256 : S1x256.Broadcasts S32x256
  inb_S32x256_S32x256_0_0 : ∀ a, (![0, 0] : Fin 2 → Nat) a + S32x256.size a ≤ S32x256.size a
  h_S32x256 : 0 < S32x256.numel
  dot_S32x8192_S256x8192_S32x256_1_1_0_0_n_n_wf : DotDims.WF S32x8192 S256x8192 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x8192.size a ≤ S32x8192.size a
  hwx0_0 : ∀ i : grid0.Coords, EltTy.bits .f32 = 32 ∨ (Rect.block (s := S32x8192) S32x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .i32 = 32 ∨ (Rect.block (s := S8192x8192) S256x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S8192.size a
  hwx0_2 : ∀ i : grid0.Coords, EltTy.bits .f32 = 32 ∨ (Rect.block (s := S8192) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S8192.size a
  hwx0_3 : ∀ i : grid0.Coords, EltTy.bits .f32 = 32 ∨ (Rect.block (s := S8192) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S32x8192.size a
  hwx0_4 : ∀ i : grid0.Coords, EltTy.bits .f32 = 32 ∨ (Rect.block (s := S32x8192) S32x256.size (cc0_transform_4 i) (hinb0_4 i)).WholeWords (EltTy.packing .f32)

variable [Facts₀]

def dot_S32x8192_S256x8192_S32x256_1_1_0_0_n_n : DotDims S32x8192 S256x8192 S32x256 where
  lhsContracting := [1]
  rhsContracting := [1]
  lhsNonContracting := [0]
  rhsNonContracting := [0]
  lhsBatch := []
  rhsBatch := []
  wf := dot_S32x8192_S256x8192_S32x256_1_1_0_0_n_n_wf

abbrev win0_0 : Pipeline.Window sig grid0 :=
  Pipeline.Window.ofSpec (Memref.whole main_arg0) S32x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S32x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x8192 : Shape := ⟨2, ![32, 8192]⟩
abbrev S8192 : Shape := ⟨1, ![8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 29
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S8192, .f32⟩
  | .hbm, ⟨2, _⟩ => ⟨S8192, .f32⟩
  | .hbm, ⟨3, _⟩ => ⟨S8192x8192, .i32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192, .i1⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S32x8192, .f32⟩
  | .hbm, ⟨26, _⟩ => ⟨S1x8192, .f32⟩
  | .hbm, ⟨27, _⟩ => ⟨S32x8192, .f32⟩
  | .hbm, ⟨28, _⟩ => ⟨S32x8192, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S32x8192_0_1 : S1x8192.BroadcastsInDim S32x8192 (![0, 1] : Fin 2 → Fin S32x8192.rank)
  dot_S32x8192_S8192x8192_S32x8192_1_1_0_0_n_n_wf : DotDims.WF S32x8192 S8192x8192 S32x8192 [1] [1] [0] [0] [] []

variable [Facts₀]

def dot_S32x8192_S8192x8192_S32x8192_1_1_0_0_n_n : DotDims S32x8192 S8192x8192 S32x8192 where
  lhsContracting := [1]
  rhsContracting := [1]
  lhsNonContracting := [0]
  rhsNonContracting := [0]
  lhsBatch := []
  rhsBatch := []
  wf := dot_S32x8192_S8192x8192_S32x8192_1_1_0_0_n_n_wf

class Facts : Prop extends Facts₀ where

variable [Facts]
-- ==== Proof.Scale.lean ====
/-
  The mathematics both programs share, stated over the extended reals with no program in sight.

  Per output channel `o` the layer's scale is `max (softplus l) c` of the channel's log-scale entry `l`, with
  `softplus l = max l 0 + log (1 + exp (-|l|))` and `c` the floor. For a finite `l` and a floor that is not `+∞`
  this is a real number (`scaleOf_coe`): `exp` of a real is a positive real, so `1 + exp (-|l|)` is a positive
  real and its logarithm a real.

  The layer's output at `(b, o)` is `(∑ k, x (b, k) · W (o, k)) · scale o + bias o`, `W` the integer weight state
  read as reals (`out`). Scaling the weights first and contracting afterwards gives the same number as long as
  the activations and the scale are real: in `ℝ` a common factor moves across a finite sum
  (`sum_mul_scale`); on the extended reals it would not at the infinities.
-/
import Idealize.ShloMosaic.PureOps.Ideal
import Idealize.ShloMosaic.PureOps.Ideal.Laws
import Idealize.ShloMosaic.Lib.ValueIdx

noncomputable section

namespace Cert.TernaryLinear

open Idealize.ShloMosaic Idealize.ShloMosaic.ValueIdx

/-- The per-channel scale: softplus of the log-scale entry, clamped below by the floor `c`. The softplus is written
    in its overflow-free form `max l 0 + log1p (exp (-|l|))`, `|l| = max l (-l)`. -/
def scaleOf (c l : EReal) : EReal :=
  max (max l 0 + Ideal.log1p (Ideal.exp (-(max l (-l))))) c

/-- The coercion of the reals into the extended reals is monotone, so it commutes with `max`. -/
theorem coe_max (a b : ℝ) : ((max a b : ℝ) : EReal) = max (a : EReal) (b : EReal) :=
  EReal.coe_strictMono.monotone.map_max

/-- A real log-scale entry and a floor below `+∞` give a real scale. -/
theorem scaleOf_coe (c : EReal) (hc : c ≠ ⊤) (l : ℝ) : ∃ r : ℝ, scaleOf c (l : EReal) = (r : EReal) := by
  have hexp : Ideal.exp (-(max (l : EReal) (-(l : EReal)))) = ((Real.exp (-(max l (-l))) : ℝ) : EReal) := by
    rw [← EReal.coe_neg, ← coe_max, ← EReal.coe_neg]; rfl
  have hpos : ¬ (1 + Real.exp (-(max l (-l))) ≤ 0) := not_le.2 (by positivity)
  have hlog : Ideal.log1p ((Real.exp (-(max l (-l))) : ℝ) : EReal) = ((Real.log (1 + Real.exp (-(max l (-l)))) : ℝ) : EReal) := by
    unfold Ideal.log1p
    rw [← EReal.coe_one, ← EReal.coe_add]
    show (if 1 + Real.exp (-(max l (-l))) ≤ 0 then (⊥ : EReal) else _) = _
    rw [if_neg hpos]
  have hmax : max (l : EReal) 0 = ((max l 0 : ℝ) : EReal) := by rw [← EReal.coe_zero, ← coe_max]
  unfold scaleOf
  rw [hexp, hlog, hmax, ← EReal.coe_add]
  induction c using EReal.rec with
  | bot => exact ⟨_, max_eq_left bot_le⟩
  | coe r => exact ⟨_, (coe_max _ _).symm⟩
  | top => exact absurd rfl hc

/-- The coercion of a finite real sum is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- With real activations, integer weights and a real scale, scaling the contraction is contracting against the
    scaled weights: distributivity in `ℝ`. -/
theorem sum_mul_scale {ι : Type*} [Fintype ι] (x : ι → ℝ) (w : ι → ℤ) (s : ℝ) :
    (∑ k, (x k : EReal) * (((w k : ℝ)) : EReal)) * (s : EReal)
      = ∑ k, (x k : EReal) * ((((w k : ℝ)) : EReal) * (s : EReal)) := by
  simp only [← EReal.coe_mul, ← coe_sum]
  rw [Finset.sum_mul]
  exact congrArg _ (Finset.sum_congr rfl fun k _ => by ring)

/-- The layer's output as ONE function of the four argument arrays, index by index: the activations' row contracted
    against the integer weight row of the channel, scaled by the channel's scale, plus the channel's bias. -/
def out (c : EReal) (x : (⟨2, ![32, 8192]⟩ : Shape).Idx → EReal) (ls b : (⟨1, ![8192]⟩ : Shape).Idx → EReal)
    (w : (⟨2, ![8192, 8192]⟩ : Shape).Idx → BitVec 32) : (⟨2, ![32, 8192]⟩ : Shape).Idx → EReal :=
  fun i => (∑ k : Fin 8192, x (ix2 (i 0) k) * (((w (ix2 (i 1) k)).toInt : ℝ) : EReal)) * scaleOf c (ls (ix1 (i 1)))
    + b (ix1 (i 1))

/-- Nothing differs from itself: the `x ≠ x` test that guards a NaN never fires on the extended reals, whether it
    is spelt as the unordered or as the ordered comparison. -/
theorem cmp_une_self (a : EReal) : Ideal.cmp .une a a = 0#1 := by simp [Ideal.cmp]
theorem cmp_one_self (a : EReal) : Ideal.cmp .one a a = 0#1 := by simp [Ideal.cmp]

/-- The floor the two programs share, `f32` nearest `1e-4`, is a real number. -/
theorem floor_ne_top : Ideal.ofBits .f32 0x38D1B717#32 ≠ ⊤ := by
  simp [Ideal.ofBits, Ideal.ieee, -EReal.coe_mul]

end Cert.TernaryLinear

end
-- ==== Proof.KernelPayload.lean ====
/-
  The kernel body's stored value, read at an index of its block.

  At grid point `t` the body holds the whole activation matrix `x` ([32, 8192]), the weight rows of 256 channels
  `w` ([256, 8192], integers) and the 256 channels' log-scales `l` and biases `β`. It stores, at row `p` and
  channel `q` of the block,
      `(∑ k, x (p, k) · w (q, k)) · scaleOf c (l q) + β q`:
  the matrix product into a zero accumulator is the plain contraction over the 8192 columns; the two narrowing
  casts are the identity on the extended reals and the integer-to-float conversion is exact; the softplus with its
  NaN guard and the floor are `scaleOf`; the reshape to one row and the broadcast down the 32 rows read the channel
  vectors at `q`.
-/
import proofs.«105066_j14259291422935_1_alg».proof.Proof.Gen.KernelIdeal.Skeleton
import proofs.«105066_j14259291422935_1_alg».proof.Proof.Scale
import Idealize.ShloMosaic.Lib.Pipeline.Value
import Idealize.ShloMosaic.Lib.ValueIdx
import Idealize.ShloMosaic.PureOps.Ideal.Laws

noncomputable section

namespace Cert.TernaryLinear.Kernel

open Cert.KernelIdeal Cert.KernelIdeal.Gen Cert.TernaryLinear
open Idealize.ShloMosaic Idealize.ShloMosaic.ValueIdx

/-! ### The contraction's operand indices, axis by axis -/

theorem lhs_axis0 (i : S32x256.Idx) (k : dot_S32x8192_S256x8192_S32x256_1_1_0_0_n_n.contr.Idx) :
    (dot_S32x8192_S256x8192_S32x256_1_1_0_0_n_n.lhsIdx i k 0).val = (i 0).val := by
  unfold DotDims.lhsIdx
  rw [dif_neg (show ¬(0 : Fin S32x8192.rank) ∈ dot_S32x8192_S256x8192_S32x256_1_1_0_0_n_n.lhsBatch by decide), dif_pos (show (0 : Fin S32x8192.rank) ∈ dot_S32x8192_S256x8192_S32x256_1_1_0_0_n_n.lhsNonContracting by decide)]
  rfl
theorem lhs_axis1 (i : S32x256.Idx) (k : dot_S32x8192_S256x8192_S32x256_1_1_0_0_n_n.contr.Idx) :
    (dot_S32x8192_S256x8192_S32x256_1_1_0_0_n_n.lhsIdx i k 1).val = (k ⟨0, by decide⟩).val :=
  dot_S32x8192_S256x8192_S32x256_1_1_0_0_n_n.lhsIdx_val_of_single rfl i k
theorem rhs_axis0 (i : S32x256.Idx) (k : dot_S32x8192_S256x8192_S32x256_1_1_0_0_n_n.contr.Idx) :
    (dot_S32x8192_S256x8192_S32x256_1_1_0_0_n_n.rhsIdx i k 0).val = (i 1).val := by
  unfold DotDims.rhsIdx
  rw [dif_neg (show ¬(0 : Fin S256x8192.rank) ∈ dot_S32x8192_S256x8192_S32x256_1_1_0_0_n_n.rhsBatch by decide), dif_pos (show (0 : Fin S256x8192.rank) ∈ dot_S32x8192_S256x8192_S32x256_1_1_0_0_n_n.rhsNonContracting by decide)]
  rfl
theorem rhs_axis1 (i : S32x256.Idx) (k : dot_S32x8192_S256x8192_S32x256_1_1_0_0_n_n.contr.Idx) :
    (dot_S32x8192_S256x8192_S32x256_1_1_0_0_n_n.rhsIdx i k 1).val = (k ⟨0, by decide⟩).val :=
  dot_S32x8192_S256x8192_S32x256_1_1_0_0_n_n.rhsIdx_val_of_single rfl i k

/-- The matrix product into the zero accumulator at `(p, q)`: row `p` of the left operand against row `q` of the
    right one, summed over the 8192 columns. -/
theorem dot_apply (l : FVec Ideal S32x8192 .bf16) (r : FVec Ideal S256x8192 .bf16) (p : Fin 32) (q : Fin 256) :
    matmul dot_S32x8192_S256x8192_S32x256_1_1_0_0_n_n none l r (constant S32x256 .f32 0x00000000#32) (ix2 p q)
      = ∑ k : Fin 8192, l (ix2 p k) * r (ix2 q k) := by
  simp only [matmul]
  rw [Ideal.matmul_constant_zero_apply, ← Equiv.sum_comp (contrEquiv1 dot_S32x8192_S256x8192_S32x256_1_1_0_0_n_n 8192 rfl rfl).symm]
  refine Finset.sum_congr rfl fun k _ => ?_
  have hk := contrEquiv1_symm_val dot_S32x8192_S256x8192_S32x256_1_1_0_0_n_n 8192 rfl rfl k
  have el : dot_S32x8192_S256x8192_S32x256_1_1_0_0_n_n.lhsIdx (ix2 p q) ((contrEquiv1 dot_S32x8192_S256x8192_S32x256_1_1_0_0_n_n 8192 rfl rfl).symm k) = ix2 p k := funext fun a => Fin.ext (by
    match a with
    | ⟨0, _⟩ => exact lhs_axis0 _ _
    | ⟨1, _⟩ => exact (lhs_axis1 _ _).trans hk)
  have er : dot_S32x8192_S256x8192_S32x256_1_1_0_0_n_n.rhsIdx (ix2 p q) ((contrEquiv1 dot_S32x8192_S256x8192_S32x256_1_1_0_0_n_n 8192 rfl rfl).symm k) = ix2 q k := funext fun a => Fin.ext (by
    match a with
    | ⟨0, _⟩ => exact rhs_axis0 _ _
    | ⟨1, _⟩ => exact (rhs_axis1 _ _).trans hk)
  rw [el, er]

/-! ### The layout operations and three pointwise operations, read at an index -/

/-- A channel vector reshaped to one row and broadcast down the 32 rows, read at `(p, q)`, is the vector at `q`. -/
theorem row_bcast_apply {α : Type} (v : S256.Idx → α) (p : Fin 32) (q : Fin 256) :
    broadcastTo S32x256 (shapeCast S1x256 v shapeCasts_S256_S1x256) broadcasts_S1x256_S32x256 (ix2 p q) = v (ix1 q) := by
  rw [broadcastTo_apply _ broadcasts_S1x256_S32x256 (ix2 p q) (ix2 (0 : Fin 1) q) (fun a => match a with
    | ⟨0, _⟩ => by show (0 : Nat) = if (1 : Nat) = 1 then 0 else _; rw [if_pos rfl]
    | ⟨1, _⟩ => by show q.val = if (256 : Nat) = 1 then 0 else q.val; rw [if_neg (by decide)])]
  rw [shapeCast_addUnit_apply ![256] v shapeCasts_S256_S1x256 (ix2 (0 : Fin 1) q)]
  exact congrArg v (funext fun a => by match a with | ⟨0, _⟩ => rfl)

theorem absf_apply {s : Shape} {φ : FTy} (a : FVec Ideal s φ) (i : s.Idx) : absf a i = max (a i) (-(a i)) := rfl
theorem exp_apply {s : Shape} {φ : FTy} (a : FVec Ideal s φ) (i : s.Idx) : exp a i = Ideal.exp (a i) := rfl
theorem log1p_apply {s : Shape} {φ : FTy} (a : FVec Ideal s φ) (i : s.Idx) : log1p a i = Ideal.log1p (a i) := rfl
theorem sitofp_coe {s : Shape} {φ : FTy} (a : IVec s 32) (i : s.Idx) :
    (sitofp φ a : FVec Ideal s φ) i = (((a i).toInt : ℝ) : EReal) := rfl
theorem scalar_ofBits (b : BitVec 32) : (Scalar.ofBits .f32 b : Ideal .f32) = Ideal.ofBits .f32 b := rfl

/-! ### The stored value -/

/-- The body's one store at `(p, q)` of the block. -/
theorem stored_apply (x : Vec Ideal S32x8192 .f32) (w : Vec Ideal S256x8192 .i32) (l β : Vec Ideal S256 .f32)
    (p : Fin 32) (q : Fin 256) :
    k0_pay1 (F := Ideal) x w l β (ix2 p q)
      = (∑ k : Fin 8192, x (ix2 p k) * (((w (ix2 q k)).toInt : ℝ) : EReal)) * scaleOf (Ideal.ofBits .f32 0x38D1B717#32) (l (ix1 q))
        + β (ix1 q) := by
  unfold k0_pay1
  rw [addf_apply, mulf_apply, dot_apply, row_bcast_apply, row_bcast_apply]
  simp only [maximumf_apply, select_apply, cmpf_apply, subf_apply, addf_apply, broadcast_apply, absf_apply, exp_apply,
    log1p_apply, truncf_apply, sitofp_coe, scalar_ofBits, Ideal.ofBits_zero_f32, Ideal.cmpf_def, cmp_one_self, select_zero,
    sub_zero, zero_sub, add_zero, scaleOf]

end Cert.TernaryLinear.Kernel

end
-- ==== Proof.KernelValue.lean ====
/-
  The kernel's result array after its run is the layer's output function `out` of the four argument arrays.

  Grid point `t` (of 32) handles channels `256·t … 256·t + 255`: it reads the whole activation matrix, the weight
  rows, log-scales and biases of those channels, and writes the [32, 256] block of the result at column block `t`.
  What it writes is `out` restricted to that block (the stored value read at an index, with each input block read
  where the window puts it), and the 32 column blocks tile the [32, 8192] result, so the array ends at `out`.
-/
import proofs.«105066_j14259291422935_1_alg».proof.Proof.Gen.KernelIdeal.Value
import proofs.«105066_j14259291422935_1_alg».proof.Proof.KernelPayload

noncomputable section

namespace Cert.TernaryLinear.Kernel

open Cert.KernelIdeal Cert.KernelIdeal.Gen Cert.TernaryLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a <;> rfl

/-- The stored value at an index `j` of the block is `out` at the array index `i` the block's index lands on, when
    the four loaded blocks are the arrays' rows and channels `256·n …`: row `j 0`, channel `256·n + j 1`. -/
theorem stored_eq_out (x : Vec Ideal S32x8192 .f32) (w : Vec Ideal S256x8192 .i32) (l β : Vec Ideal S256 .f32)
    (X : S32x8192.Idx → EReal) (L B : S8192.Idx → EReal) (W : S8192x8192.Idx → BitVec 32)
    (n : Nat) (hn : n < 32) (j : S32x256.Idx) (i : S32x8192.Idx)
    (hi0 : (i 0).val = (j 0).val) (hi1 : (i 1).val = n * 256 + (j 1).val)
    (hx : ∀ (p : Fin 32) (k : Fin 8192), x (ix2 p k) = X (ix2 p k))
    (hw : ∀ (q : Fin 256) (k : Fin 8192), w (ix2 q k) = W (ix2 (⟨n * 256 + q.val, by have := q.isLt; omega⟩ : Fin 8192) k))
    (hl : ∀ q : Fin 256, l (ix1 q) = L (ix1 (⟨n * 256 + q.val, by have := q.isLt; omega⟩ : Fin 8192)))
    (hβ : ∀ q : Fin 256, β (ix1 q) = B (ix1 (⟨n * 256 + q.val, by have := q.isLt; omega⟩ : Fin 8192))) :
    k0_pay1 (F := Ideal) x w l β j = out (Ideal.ofBits .f32 0x38D1B717#32) X L B W i := by
  obtain ⟨p, q, rfl⟩ : ∃ (p : Fin 32) (q : Fin 256), j = ix2 p q := ⟨j 0, j 1, eq_ix2 j⟩
  have e0 : i 0 = p := Fin.ext hi0
  have e1 : i 1 = (⟨n * 256 + q.val, by have := q.isLt; omega⟩ : Fin 8192) := Fin.ext hi1
  rw [stored_apply]
  unfold out
  rw [e0, e1]
  simp only [hx, hw, hl, hβ]

/-- The printed index maps over the 32 grid points: the activations' block is always block `(0, 0)`; the weight
    rows', the log-scales' and the biases' block index is the result's column block index; the result's row block
    index is `0` and its column block index is below 32. -/
theorem idx_facts : ∀ t : Fin cfg0.N, win0_0.index t (0 : Fin 2) = 0 ∧ win0_0.index t (1 : Fin 2) = 0
    ∧ win0_1.index t (0 : Fin 2) = win0_4.index t (1 : Fin 2) ∧ win0_1.index t (1 : Fin 2) = 0
    ∧ win0_2.index t (0 : Fin 1) = win0_4.index t (1 : Fin 2)
    ∧ win0_3.index t (0 : Fin 1) = win0_4.index t (1 : Fin 2)
    ∧ win0_4.index t (0 : Fin 2) = 0 ∧ win0_4.index t (1 : Fin 2) < 32 :=
  (by decide +kernel : ∀ t : Fin grid0.N, _)

/-- Every column block of the result is some point's. -/
theorem idx_onto : ∀ q1 : Fin 32, ∃ t : Fin cfg0.N, win0_4.index t = ![0, q1.val] :=
  (by decide +kernel : ∀ q1 : Fin 32, ∃ t : Fin grid0.N, win0_4.index t = ![0, q1.val])

/-- WHAT POINT `t` WRITES BACK is block `t` of `out` of the argument arrays. -/
theorem flushed_eq (c : Dev nD) (t : Fin cfg0.N) :
    (dats m 0 c).flushed 4 t = ((cfg0.win 4).blk t).view.read (Elt Ideal)
      (out (Ideal.ofBits .f32 0x38D1B717#32) (V m c main_arg0) (V m c main_arg1) (V m c main_arg2) (V m c main_arg3)) := by
  rw [Value.flushed4]
  unfold out0_4
  rw [View.canon_unit_zero off2]
  simp only [View.ld_unit_zero (S := S32x8192) off2, View.ld_unit_zero (S := S256x8192) off2, View.ld_unit_zero (S := S256) off1]
  obtain ⟨e00, e01, e10, e11, e2, e3, e40, e41⟩ := idx_facts t
  funext j
  show k0_pay1 (F := Ideal) (iblk m c 0 t) (iblk m c 1 t) (iblk m c 2 t) (iblk m c 3 t) j
    = out (Ideal.ofBits .f32 0x38D1B717#32) (V m c main_arg0) (V m c main_arg1) (V m c main_arg2) (V m c main_arg3) (((cfg0.win 4).blk t).view.emb j)
  refine stored_eq_out (iblk m c 0 t) (iblk m c 1 t) (iblk m c 2 t) (iblk m c 3 t) (V m c main_arg0) (V m c main_arg1)
    (V m c main_arg2) (V m c main_arg3) (win0_4.index t (1 : Fin 2)) e41 j (((cfg0.win 4).blk t).view.emb j) ?_ ?_ ?_ ?_ ?_ ?_
  · show win0_4.index t (0 : Fin 2) * 32 + 1 * (j 0).val = (j 0).val
    omega
  · show win0_4.index t (1 : Fin 2) * 256 + 1 * (j 1).val = win0_4.index t (1 : Fin 2) * 256 + (j 1).val
    omega
  · intro p k
    show V m c main_arg0 (((cfg0.win 0).blk t).view.emb (ix2 p k)) = V m c main_arg0 (ix2 p k)
    refine congrArg (V m c main_arg0) (funext fun a => Fin.ext ?_)
    match a with
    | ⟨0, _⟩ => show win0_0.index t (0 : Fin 2) * 32 + 1 * p.val = p.val; omega
    | ⟨1, _⟩ => show win0_0.index t (1 : Fin 2) * 8192 + 1 * k.val = k.val; omega
  · intro q k
    show V m c main_arg3 (((cfg0.win 1).blk t).view.emb (ix2 q k)) = V m c main_arg3 (ix2 _ k)
    refine congrArg (V m c main_arg3) (funext fun a => Fin.ext ?_)
    match a with
    | ⟨0, _⟩ => show win0_1.index t (0 : Fin 2) * 256 + 1 * q.val = win0_4.index t (1 : Fin 2) * 256 + q.val; omega
    | ⟨1, _⟩ => show win0_1.index t (1 : Fin 2) * 8192 + 1 * k.val = k.val; omega
  · intro q
    show V m c main_arg1 (((cfg0.win 2).blk t).view.emb (ix1 q)) = V m c main_arg1 (ix1 _)
    refine congrArg (V m c main_arg1) (funext fun a => Fin.ext ?_)
    match a with
    | ⟨0, _⟩ => show win0_2.index t (0 : Fin 1) * 256 + 1 * q.val = win0_4.index t (1 : Fin 2) * 256 + q.val; omega
  · intro q
    show V m c main_arg2 (((cfg0.win 3).blk t).view.emb (ix1 q)) = V m c main_arg2 (ix1 _)
    refine congrArg (V m c main_arg2) (funext fun a => Fin.ext ?_)
    match a with
    | ⟨0, _⟩ => show win0_3.index t (0 : Fin 1) * 256 + 1 * q.val = win0_4.index t (1 : Fin 2) * 256 + q.val; omega

/-- An index of the result is in point `t`'s block iff each coordinate is in the block's range on its axis. -/
theorem mem_blk (t : Fin cfg0.N) (i : S32x8192.Idx) :
    i ∈ ((cfg0.win 4).blk t).view.set ↔ ∀ a : Fin 2, win0_4.index t a * S32x256.size a ≤ (i a).val ∧ (i a).val < win0_4.index t a * S32x256.size a + S32x256.size a := by
  show i ∈ ((View.whole main_v0).slice (win0_4.rect t)).set ↔ _
  rw [View.set_slice_whole, Rect.mem_set_unit]
  exact Iff.rfl

/-- The 32 column blocks tile the result: every index is in the block of the point that handles its channel. -/
theorem covered (i : S32x8192.Idx) : ∃ t : Fin cfg0.N, (cfg0.win 4).flush t = true ∧ i ∈ ((cfg0.win 4).blk t).view.set := by
  have hi0 : (i 0).val < 32 := (i 0).isLt
  have hi1 : (i 1).val < 8192 := (i 1).isLt
  obtain ⟨t, ht⟩ := idx_onto ⟨(i 1).val / 256, by omega⟩
  have q0 : win0_4.index t (0 : Fin 2) = 0 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 32 ≤ (i 0).val ∧ (i 0).val < win0_4.index t (0 : Fin 2) * 32 + 32; omega
  | ⟨1, _⟩ => show win0_4.index t (1 : Fin 2) * 256 ≤ (i 1).val ∧ (i 1).val < win0_4.index t (1 : Fin 2) * 256 + 256; omega

/-- THE RESULT ARRAY after the run is `out` of the argument arrays as launched. -/
theorem final (c : Dev nD) : (dats m 0 c).arrAt 4 cfg0.N
    = out (Ideal.ofBits .f32 0x38D1B717#32) (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) covered

/-- The kernel's run re-posted: the result at `out` of the arguments, the arguments unchanged. -/
theorem run : θ_run defs (onTc (τ := τ) (main (F := Ideal))) ⟨m, fun _ => 0, ρ⟩ fun r => ∀ c : Dev nD,
      r.2.mem ((c : Thread nD τ).loc main_v0)
        = out (Ideal.ofBits .f32 0x38D1B717#32) (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.TernaryLinear.Kernel

end
-- ==== Proof.RefValue.lean ====
/-
  The reference's result, read one operation at a time, is the layer's output function `out` of its arguments —
  for finite activations and finite log-scales.

  The reference scales the weights first: its contraction at `(b, o)` is `∑ k, x (b, k) · (W (o, k) · scale o)`, the
  scale broadcast along the weight row. `out` scales the contraction instead. The two agree because every factor
  is a real number there: the activations by hypothesis, the weights as integers, the scale by `scaleOf_coe`.
-/
import proofs.«105066_j14259291422935_1_alg».proof.Proof.Gen.ReferenceIdeal.Read
import proofs.«105066_j14259291422935_1_alg».proof.Proof.Scale

noncomputable section

namespace Cert.TernaryLinear.Ref

open Cert.ReferenceIdeal Cert.ReferenceIdeal.Read Cert.TernaryLinear
open Idealize.ShloMosaic Idealize.ShloMosaic.ValueIdx

/-- The reference's clamped softplus at a channel is `scaleOf` of the channel's log-scale entry: the NaN guard's
    comparison is `0`, so the select takes the softplus arm; subtracting and adding the zero constant change nothing. -/
theorem scale_apply (x1 : FVec Ideal S8192 .f32) (j : S8192.Idx) :
    val_main_v2 (F := Ideal) x1 j = scaleOf (Ideal.ofBits .f32 0x38D1B717#32) (x1 j) := by
  simp only [val_main_v2_apply, val_main_v0_apply, val_main_v1_apply, val_main_cst_apply, val_main_call0_v4_apply,
    val_main_call0_v6_apply, val_main_call0_v11_apply, val_main_call0_v1_apply, val_main_call0_v10_apply,
    val_main_call0_v9_apply, val_main_call0_v8_apply, val_main_call0_v7_apply, val_main_call0_v3_apply,
    val_main_call0_v0_apply, val_main_call0_v2_apply, val_main_call0_v5_apply, val_main_call0_cst_apply,
    Ideal.ofBits_def, Ideal.ofBits_zero_f32, Ideal.cmpf_def, cmp_une_self, select_zero, Ideal.maximumf_def,
    Ideal.subf_def, Ideal.addf_def, Ideal.hostUnary_log1p_def, Ideal.hostUnary_exp_def, Ideal.hostNegf_def,
    Ideal.hostAbsf_def, Ideal.negf_def, Ideal.absf_def, sub_zero, add_zero, scaleOf]

/-- The reference's result is `out` of its arguments when the activations and the log-scales are real. -/
theorem result_eq (x0 : FVec Ideal S32x8192 .f32) (x1 x2 : FVec Ideal S8192 .f32) (x3 : IVec S8192x8192 32)
    (hx : ∀ i, ∃ r : ℝ, x0 i = (r : EReal)) (hl : ∀ j, ∃ r : ℝ, x1 j = (r : EReal)) :
    val_main_v10 (F := Ideal) x0 x1 x2 x3 = out (Ideal.ofBits .f32 0x38D1B717#32) x0 x1 x2 x3 := by
  funext i
  obtain ⟨p, q, rfl⟩ : ∃ (p : Fin 32) (q : Fin 8192), i = ix2 p q := ⟨i 0, i 1, eq_ix2 i⟩
  have hb : idx_main_v8 (idx_main_v9 (ix2 p q)) = ix1 q :=
    funext fun a => Fin.ext (by match a with | ⟨0, _⟩ => rfl)
  have hlx : ∀ k : Fin 8192, lidx_main_v7 (ix2 p q) k = ix2 p k := fun k =>
    funext fun a => Fin.ext (by match a with | ⟨0, _⟩ => rfl | ⟨1, _⟩ => rfl)
  have hrx : ∀ k : Fin 8192, ridx_main_v7 (ix2 p q) k = ix2 q k := fun k =>
    funext fun a => Fin.ext (by match a with | ⟨0, _⟩ => rfl | ⟨1, _⟩ => rfl)
  have hsx : ∀ k : Fin 8192, idx_main_v4 (idx_main_v5 (ix2 q k)) = ix1 q := fun k =>
    funext fun a => Fin.ext (by match a with | ⟨0, _⟩ => rfl)
  rw [val_main_v10_apply, val_main_v7_apply, val_main_v9_apply, val_main_v8_apply, hb]
  simp only [hlx, hrx, val_main_v6_apply, val_main_v3_apply, val_main_v5_apply, val_main_v4_apply, hsx, scale_apply,
    Ideal.addf_def, Ideal.mulf_def]
  obtain ⟨l, hl'⟩ := hl (ix1 q)
  obtain ⟨s, hs⟩ := scaleOf_coe (Ideal.ofBits .f32 0x38D1B717#32) floor_ne_top l
  choose xr hxr using hx
  unfold out
  simp only [hl', hs, hxr]
  exact congrArg (· + x2 (ix1 q)) (sum_mul_scale (fun k => xr (ix2 p k)) (fun k => (x3 (ix2 q k)).toInt) s).symm

end Cert.TernaryLinear.Ref

end
-- ==== Proof.Finite.lean ====
/-
  What the precondition gives: every activation and every log-scale entry is a real number.

  The precondition is the conjunction of three `all (|a| < +∞)` tests, one per float argument. A conjunction of bits
  that is `1` has both bits `1`; an `all` that is `1` was `1` at every index; and an extended real whose absolute
  value `max a (-a)` is strictly below `+∞` is neither infinity.
-/
import proofs.«105066_j14259291422935_1_alg».proof.Pre_finite_inputs
import Idealize.ShloMosaic.Lib.ReduceAll
import Idealize.ShloMosaic.Lib.ValueIdx
import Idealize.ShloMosaic.PureOps.Ideal.Laws

noncomputable section

namespace Cert.TernaryLinear.Finite

open Cert.Pre_finite_inputs Idealize.ShloMosaic

variable [Facts]

instance : Subsingleton S_.Idx := ⟨fun a b => funext fun d => d.elim0⟩

/-- The pattern `0x7F800000` denotes `+∞`. -/
theorem ofBits_inf : Ideal.ofBits .f32 0x7F800000#32 = ⊤ := by
  simp [Ideal.ofBits, Ideal.ieee]

/-- An extended real whose absolute value is strictly below `+∞` is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- Under the precondition the activations and the log-scales are real at every index. -/
theorem real_of_pre (a0 : FVec Ideal S32x8192 .f32) (a1 a2 : FVec Ideal S8192 .f32) (a3 : IVec S8192x8192 32)
    (h : fn (F := Ideal) a0 a1 a2 a3 = fun _ => 1#1) :
    (∀ i, ∃ r : ℝ, a0 i = (r : EReal)) ∧ (∀ j, ∃ r : ℝ, a1 j = (r : EReal)) := by
  have h0 := congrFun h ValueIdx.ix0
  dsimp only [fn] at h0
  obtain ⟨h01, _⟩ := IntOp.andi_eq_one.1 h0
  obtain ⟨hx, hl⟩ := IntOp.andi_eq_one.1 h01
  exact ⟨fun i => real_of_abs_lt (a0 i) (Host.reduce_andi_all _ _ _ _ ValueIdx.ix0 hx i),
    fun j => real_of_abs_lt (a1 j) (Host.reduce_andi_all _ _ _ _ ValueIdx.ix0 hl j)⟩

end Cert.TernaryLinear.Finite

end
-- ==== Proof.lean ====
/-
  A ternary linear layer: `y[b, o] = (∑ i, x[b, i] · W[o, i]) · s[o] + β[o]`, `W` an integer weight state and
  `s[o] = max (softplus l[o]) c` the per-channel scale, against the reference that scales the weights first,
  `y[b, o] = ∑ i, x[b, i] · (W[o, i] · s[o]) + β[o]`.

  On the extended reals the kernel's narrowing casts are the identity, its matrix product into a zero accumulator is
  the plain contraction, and both programs' softplus — `max l 0 + log1p (exp (-|l|))` behind a NaN guard that never
  fires — is one function. What differs is where the scale multiplies: outside the contraction or inside it. The two
  agree when every factor is a real number, and the precondition makes the activations and the log-scales finite
  (the weights are integers, and a finite log-scale has a finite scale).

  The kernel's result array is the function `out` of its four arguments (32 column blocks of 256 channels tile it);
  the reference's result, read one operation at a time, is the same function; the three frames are the programs'
  runs with the result dropped; nothing was rewritten by the idealization.
-/
import proofs.«105066_j14259291422935_1_alg».proof.Defs
import proofs.«105066_j14259291422935_1_alg».proof.Proof.Gen.Kernel
import proofs.«105066_j14259291422935_1_alg».proof.Proof.Gen.Kernel.Skeleton
import proofs.«105066_j14259291422935_1_alg».proof.Proof.Gen.Kernel.Launch
import proofs.«105066_j14259291422935_1_alg».proof.Proof.Gen.Kernel.Points
import proofs.«105066_j14259291422935_1_alg».proof.Proof.Gen.Kernel.Frame
import proofs.«105066_j14259291422935_1_alg».proof.Proof.Gen.KernelIdeal
import proofs.«105066_j14259291422935_1_alg».proof.Proof.Gen.KernelIdeal.Skeleton
import proofs.«105066_j14259291422935_1_alg».proof.Proof.Gen.KernelIdeal.Launch
import proofs.«105066_j14259291422935_1_alg».proof.Proof.Gen.KernelIdeal.Points
import proofs.«105066_j14259291422935_1_alg».proof.Proof.Gen.KernelIdeal.Frame
import proofs.«105066_j14259291422935_1_alg».proof.Proof.Gen.ReferenceIdeal
import proofs.«105066_j14259291422935_1_alg».proof.Proof.Gen.Pre_finite_inputs
import proofs.«105066_j14259291422935_1_alg».proof.Proof.Gen.KernelIdeal.Value
import proofs.«105066_j14259291422935_1_alg».proof.Proof.Gen.ReferenceIdeal.Run
import proofs.«105066_j14259291422935_1_alg».proof.Proof.Gen.ReferenceIdeal.Read
import proofs.«105066_j14259291422935_1_alg».proof.Proof.KernelValue
import proofs.«105066_j14259291422935_1_alg».proof.Proof.RefValue
import proofs.«105066_j14259291422935_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result at `out` of the arguments: the kernel's unconditionally, the reference's because
    the precondition makes the activations and the log-scales real. -/
theorem algebraic : Cert.algebraic_KernelIdeal_ReferenceIdeal := by
  intro m ρ m' ρ' hpre hagree
  refine ⟨_, Cert.TernaryLinear.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hl⟩ := Cert.TernaryLinear.Finite.real_of_pre _ _ _ _ (hpre c)
  rw [(hagree c).1, (hagree c).2.1, (hagree c).2.2.1, (hagree c).2.2.2]
  exact (Cert.ReferenceIdeal.Read.val_main_v10_eq _ _ _ _).trans (Cert.TernaryLinear.Ref.result_eq _ _ _ _ hx hl)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
